-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S16x4096 .f32) (main_arg4 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S128x4096 : Shape := ⟨2, ![128, 4096]⟩
abbrev S1 : Shape := ⟨1, ![1]⟩
abbrev S4096x128 : Shape := ⟨2, ![4096, 128]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩
abbrev S128x1024 : Shape := ⟨2, ![128, 1024]⟩
abbrev S1024x128 : Shape := ⟨2, ![1024, 128]⟩
abbrev S512x128 : Shape := ⟨2, ![512, 128]⟩

abbrev nBuf : Space → Nat
  | .hbm => 17
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S_, .f32⟩
  | .hbm, ⟨6, _⟩ => ⟨S128x4096, .f32⟩
  | .hbm, ⟨7, _⟩ => ⟨S_, .i32⟩
  | .hbm, ⟨8, _⟩ => ⟨S1, .i32⟩
  | .hbm, ⟨9, _⟩ => ⟨S128x4096, .f32⟩
  | .hbm, ⟨10, _⟩ => ⟨S_, .f32⟩
  | .hbm, ⟨11, _⟩ => ⟨S4096x128, .f32⟩
  | .hbm, ⟨12, _⟩ => ⟨S_, .i32⟩
  | .hbm, ⟨13, _⟩ => ⟨S1, .i32⟩
  | .hbm, ⟨14, _⟩ => ⟨S4096x128, .f32⟩
  | .hbm, ⟨15, _⟩ => ⟨S1x4096, .f32⟩
  | .hbm, ⟨16, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | .local _ .vmem, ⟨8, _⟩ => ⟨S1024x128, .f32⟩
  | .local _ .vmem, ⟨9, _⟩ => ⟨S1024x128, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S_S128x4096 : S_.BroadcastsInDim S128x4096 (![] : Fin 0 → Fin S128x4096.rank)
  bcast_S_S1 : S_.BroadcastsInDim S1 (![] : Fin 0 → Fin S1.rank)
  bcast_S_S4096x128 : S_.BroadcastsInDim S4096x128 (![] : Fin 0 → Fin S4096x128.rank)
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  scatter_S128x4096_S1_S16x4096_01_n_0_0_wf : ScatterDims.WF S128x4096 S1 S16x4096 [0, 1] [] [0] 0
  scatter_S4096x128_S1_S4096x16_01_n_1_0_wf : ScatterDims.WF S4096x128 S1 S4096x16 [0, 1] [] [1] 0
  dot_S512x1024_S1024x1024_S512x1024_1_1_0_0_n_n_wf : DotDims.WF S512x1024 S1024x1024 S512x1024 [1] [1] [0] [0] [] []
  dot_S512x1024_S128x1024_S512x128_1_1_0_0_n_n_wf : DotDims.WF S512x1024 S128x1024 S512x128 [1] [1] [0] [0] [] []
  dot_S512x128_S1024x128_S512x1024_1_1_0_0_n_n_wf : DotDims.WF S512x128 S1024x128 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x4096.size a
  hwx0_3 : ∀ i : grid0.Coords, EltTy.bits .f32 = 32 ∨ (Rect.block (s := S128x4096) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S4096x128.size a
  hwx0_4 : ∀ i : grid0.Coords, EltTy.bits .f32 = 32 ∨ (Rect.block (s := S4096x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .f32 = 32 ∨ (Rect.block (s := S8192x4096) S512x1024.size (cc0_transform_5 i) (hinb0_5 i)).WholeWords (EltTy.packing .f32)

variable [Facts₀]

def scatter_S128x4096_S1_S16x4096_01_n_0_0 : ScatterDims S128x4096 S1 S16x4096 where
  updateWindowDims := [0, 1]
  insertedWindowDims := []
  scatterDimsToOperandDims := [0]
  indexVectorDim := 0
  wf := scatter_S128x4096_S1_S16x4096_01_n_0_0_wf
def scatter_S4096x128_S1_S4096x16_01_n_1_0 : ScatterDims S4096x128 S1 S4096x16 where
  updateWindowDims := [0, 1]
  insertedWindowDims := []
  scatterDimsToOperandDims := [1]
  indexVectorDim := 0
  wf := scatter_S4096x128_S1_S4096x16_01_n_1_0_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S128x1024_S512x128_1_1_0_0_n_n : DotDims S512x1024 S128x1024 S512x128 where
  lhsContracting := [1]
  rhsContracting := [1]
  lhsNonContracting := [0]
  rhsNonContracting := [0]
  lhsBatch := []
  rhsBatch := []
  wf := dot_S512x1024_S128x1024_S512x128_1_1_0_0_n_n_wf
def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x4096 : Shape := ⟨2, ![1, 4096]⟩
abbrev S8192x16 : Shape := ⟨2, ![8192, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x16, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []
  dot_S8192x4096_S16x4096_S8192x16_1_1_0_0_n_n_wf : DotDims.WF S8192x4096 S16x4096 S8192x16 [1] [1] [0] [0] [] []
  dot_S8192x16_S4096x16_S8192x4096_1_1_0_0_n_n_wf : DotDims.WF S8192x16 S4096x16 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S8192x16_S4096x16_S8192x4096_1_1_0_0_n_n : DotDims S8192x16 S4096x16 S8192x4096 where
  lhsContracting := [1]
  rhsContracting := [1]
  lhsNonContracting := [0]
  rhsNonContracting := [0]
  lhsBatch := []
  rhsBatch := []
  wf := dot_S8192x16_S4096x16_S8192x4096_1_1_0_0_n_n_wf

class Facts : Prop extends Facts₀ where

variable [Facts]
-- ==== Proof.Pieces.lean ====
/-
  What each reduction step leaves in the two accumulators and in the output block, as the body's arithmetic.

  The body keeps a dense accumulator (one output block of x·Wᵀ) and a low-rank accumulator (the same rows of x·Aᵀ)
  across the four reduction steps of a block: the first step zeroes both before adding its products, every step adds
  its products, and the last step writes the output block from the finished accumulators.
-/
import proofs.«135816_j8744553415010_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The literal offset (0, 0) is the zero offset. -/
private theorem hz : (![0, 0] : Fin 2 → Nat) = fun _ => 0 := funext fun a => by fin_cases a <;> rfl

/-- At a block's first reduction step the dense accumulator is zeroed and then receives this step's product: zero plus x·wᵀ. -/
theorem sout0_A_0_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x128 .f32) (harg10 : arg10.IsWhole) (hc0 : cond0_0 i) (hc1 : ¬cond0_1 i) (x0 : Vec F S512x1024 .f32) (x1 : Vec F S1024x1024 .f32) (x2 : Vec F S1x1024 .f32) (x3 : Vec F S128x1024 .f32) (x4 : Vec F S1024x128 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x1024) hz, View.readCov_unit_zero (S := S512x1024) _ hz]
  simp only [View.readAt_eq_ld, harg3.read_unread, harg4.read_unread, View.ld_unit_zero (S := S512x1024) hz, View.ld_unit_zero (S := S1024x1024) hz]

/-- At a block's first reduction step the low-rank accumulator is zeroed and then receives this step's product: zero plus x·aᵀ. -/
theorem sout0_A_1_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x128 .f32) (harg10 : arg10.IsWhole) (hc0 : cond0_0 i) (hc1 : ¬cond0_1 i) (x0 : Vec F S512x1024 .f32) (x1 : Vec F S1024x1024 .f32) (x2 : Vec F S1x1024 .f32) (x3 : Vec F S128x1024 .f32) (x4 : Vec F S1024x128 .f32) :
    sout0_A_1 c i arg3 harg3 arg4 harg4 arg5 harg5 arg6 harg6 arg7 harg7 arg8 harg8 arg9 harg9 arg10 harg10 hc0 hc1 x0 x1 x2 x3 x4 = k0_pay5 x0 x3 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x128) hz, View.readCov_unit_zero (S := S512x128) _ hz]
  simp only [View.readAt_eq_ld, harg3.read_unread, harg4.read_unread, harg5.read_unread, harg6.read_unread, harg7.read_unread, harg9.read_unread, harg10.read_unread,
    View.readCov_unit_zero (S := S512x1024) _ hz, View.readCov_unit_zero (S := S512x128) _ hz,
    View.ld_unit_zero (S := S512x1024) hz, View.ld_unit_zero (S := S1024x1024) hz, View.ld_unit_zero (S := S128x1024) hz, View.ld_unit_zero (S := S1024x128) hz, View.ld_unit_zero (S := S1x1024) hz, View.ld_unit_zero (S := S512x128) hz]

/-- At a middle reduction step the dense accumulator receives this step's product over what the step before left. -/
theorem sout0_B_0_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x128 .f32) (harg10 : arg10.IsWhole) (hc0 : ¬cond0_0 i) (hc1 : ¬cond0_1 i) (x0 : Vec F S512x1024 .f32) (x1 : Vec F S1024x1024 .f32) (x2 : Vec F S1x1024 .f32) (x3 : Vec F S128x1024 .f32) (x4 : Vec F S1024x128 .f32) (xs0 : Vec F S512x1024 .f32) (xs1 : Vec F S512x128 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread,
    View.readCov_unit_zero (S := S512x1024) _ hz, View.readCov_unit_zero (S := S512x128) _ hz,
    View.ld_unit_zero (S := S512x1024) hz, View.ld_unit_zero (S := S1024x1024) hz, View.ld_unit_zero (S := S128x1024) hz, View.ld_unit_zero (S := S1024x128) hz, View.ld_unit_zero (S := S1x1024) hz, View.ld_unit_zero (S := S512x128) hz]

/-- At a middle reduction step the low-rank accumulator receives this step's product over what the step before left. -/
theorem sout0_B_1_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x128 .f32) (harg10 : arg10.IsWhole) (hc0 : ¬cond0_0 i) (hc1 : ¬cond0_1 i) (x0 : Vec F S512x1024 .f32) (x1 : Vec F S1024x1024 .f32) (x2 : Vec F S1x1024 .f32) (x3 : Vec F S128x1024 .f32) (x4 : Vec F S1024x128 .f32) (xs0 : Vec F S512x1024 .f32) (xs1 : Vec F S512x128 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread,
    View.readCov_unit_zero (S := S512x1024) _ hz, View.readCov_unit_zero (S := S512x128) _ hz,
    View.ld_unit_zero (S := S512x1024) hz, View.ld_unit_zero (S := S1024x1024) hz, View.ld_unit_zero (S := S128x1024) hz, View.ld_unit_zero (S := S1024x128) hz, View.ld_unit_zero (S := S1x1024) hz, View.ld_unit_zero (S := S512x128) hz]

/-- At the last reduction step the dense accumulator receives this step's product over what the step before left. -/
theorem sout0_C_0_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x128 .f32) (harg10 : arg10.IsWhole) (hc0 : ¬cond0_0 i) (hc1 : cond0_1 i) (x0 : Vec F S512x1024 .f32) (x1 : Vec F S1024x1024 .f32) (x2 : Vec F S1x1024 .f32) (x3 : Vec F S128x1024 .f32) (x4 : Vec F S1024x128 .f32) (xs0 : Vec F S512x1024 .f32) (xs1 : Vec F S512x128 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread,
    View.readCov_unit_zero (S := S512x1024) _ hz, View.readCov_unit_zero (S := S512x128) _ hz,
    View.ld_unit_zero (S := S512x1024) hz, View.ld_unit_zero (S := S1024x1024) hz, View.ld_unit_zero (S := S128x1024) hz, View.ld_unit_zero (S := S1024x128) hz, View.ld_unit_zero (S := S1x1024) hz, View.ld_unit_zero (S := S512x128) hz]

/-- At the last reduction step the low-rank accumulator receives this step's product over what the step before left. -/
theorem sout0_C_1_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x128 .f32) (harg10 : arg10.IsWhole) (hc0 : ¬cond0_0 i) (hc1 : cond0_1 i) (x0 : Vec F S512x1024 .f32) (x1 : Vec F S1024x1024 .f32) (x2 : Vec F S1x1024 .f32) (x3 : Vec F S128x1024 .f32) (x4 : Vec F S1024x128 .f32) (xs0 : Vec F S512x1024 .f32) (xs1 : Vec F S512x128 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread,
    View.readCov_unit_zero (S := S512x1024) _ hz, View.readCov_unit_zero (S := S512x128) _ hz,
    View.ld_unit_zero (S := S512x1024) hz, View.ld_unit_zero (S := S1024x1024) hz, View.ld_unit_zero (S := S128x1024) hz, View.ld_unit_zero (S := S1024x128) hz, View.ld_unit_zero (S := S1x1024) hz, View.ld_unit_zero (S := S512x128) hz]

/-- At the last reduction step the output block is the finished dense accumulator plus the bias row, plus twice the finished low-rank accumulator times bᵀ. -/
theorem out0_C_5_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x128 .f32) (harg10 : arg10.IsWhole) (hc0 : ¬cond0_0 i) (hc1 : cond0_1 i) (x0 : Vec F S512x1024 .f32) (x1 : Vec F S1024x1024 .f32) (x2 : Vec F S1x1024 .f32) (x3 : Vec F S128x1024 .f32) (x4 : Vec F S1024x128 .f32) (xs0 : Vec F S512x1024 .f32) (xs1 : Vec F S512x128 .f32) :
    out0_C_5 c i arg3 harg3 arg4 harg4 arg5 harg5 arg6 harg6 arg7 harg7 arg8 harg8 arg9 harg9 arg10 harg10 hc0 hc1 x0 x1 x2 x3 x4 xs0 xs1 = k0_pay6 x4 (k0_pay5 x0 x3 xs1) (k0_pay4 x0 x1 xs0) x2 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread,
    View.readCov_unit_zero (S := S512x1024) _ hz, View.readCov_unit_zero (S := S512x128) _ hz,
    View.ld_unit_zero (S := S512x1024) hz, View.ld_unit_zero (S := S1024x1024) hz, View.ld_unit_zero (S := S128x1024) hz, View.ld_unit_zero (S := S1024x128) hz, View.ld_unit_zero (S := S1x1024) hz, View.ld_unit_zero (S := S512x128) hz]

end Cert.KernelIdeal.Pieces

end
-- ==== Proof.LibDenseT.lean ====
/-
  A matrix product against a transposed right operand, read at an entry.

  For dimension numbers that contract axis 1 of both operands and have no batch axis, entry (p, q) of the product of an
  [M × K] matrix with an [N × K] matrix is the sum over k of left (p, k) times right (q, k): for the vector unit's
  product into a zero accumulator, into any accumulator, and for the host's general dot alike. The hypotheses are the
  printed dimension numbers, each closed by `rfl` at a use.
-/
import Idealize.ShloMosaic.PureOps.Ideal
import Idealize.ShloMosaic.PureOps.Ideal.Laws
import Idealize.ShloMosaic.Lib.ValueIdx

noncomputable section

namespace Cert.LibDenseT

open Idealize.ShloMosaic Idealize.ShloMosaic.ValueIdx

variable {M K N : ℕ} (d : DotDims ⟨2, ![M, K]⟩ ⟨2, ![N, K]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = []) (hrb : d.rhsBatch = [])
    (j : (⟨2, ![M, N]⟩ : Shape).Idx) (k : d.contr.Idx) : (d.rhsIdx j k 0).val = (j 1).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The right operand's column is the contraction index. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (q, k). -/
theorem sum_contr (hlc : d.lhsContracting = [1]) (hrc : d.rhsContracting = [1]) (hln : d.lhsNonContracting = [0])
    (hrn : d.rhsNonContracting = [0]) (hlb : d.lhsBatch = []) (hrb : d.rhsBatch = [])
    (x : (⟨2, ![M, K]⟩ : Shape).Idx → EReal) (w : (⟨2, ![N, K]⟩ : Shape).Idx → EReal) (p : Fin M) (q : Fin N) :
    ∑ k : d.contr.Idx, x (d.lhsIdx (ix2 p q) k) * w (d.rhsIdx (ix2 p q) k) = ∑ kk : Fin K, x (ix2 p kk) * w (ix2 q kk) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 q kk := by
    funext a; apply Fin.ext
    match a with
    | ⟨0, _⟩ => exact rhs_row d hln hrn hlb hrb _ _
    | ⟨1, _⟩ => exact (rhs_col d hrc _ _).trans hk
  rw [el, er]

/-- The vector unit's product into a zero accumulator, read at (p, q). -/
theorem matmul_zero_apply {φ₁ φ₂ : FTy} (prec : Option ContractPrecision)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (p : Fin M) (q : Fin N) :
    FloatOps.matmul d prec x w (constant ⟨2, ![M, N]⟩ .f32 0x00000000#32) (ix2 p q) = ∑ kk : Fin K, x (ix2 p kk) * w (ix2 q kk) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 q kk) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (p : Fin M) (q : Fin N) :
    FloatOps.dotGeneral d prec sched x w (ix2 p q) = ∑ kk : Fin K, x (ix2 p kk) * w (ix2 q kk) := by
  rw [Ideal.dotGeneral_apply]
  exact sum_contr d hlc hrc hln hrn hlb hrb x w p q

end Cert.LibDenseT

end
-- ==== Proof.PayIdx.lean ====
/-
  The body's arithmetic read at an entry, on the extended reals.

  A change of float format is the identity there and a product into a zero accumulator is the plain sum, so:
  the dense update at (p, q) is the accumulator's entry plus Σ k, x (p, k) · w (q, k);
  the low-rank update at (p, r) is the accumulator's entry plus Σ k, x (p, k) · a (r, k);
  the output at (p, q) is (dense (p, q) + bias (0, q)) + 2 · Σ r, low (p, r) · b (q, r);
  and the two reset values are zero everywhere.
-/
import proofs.«135816_j8744553415010_1_alg».proof.Proof.Gen.KernelIdeal.Skeleton
import proofs.«135816_j8744553415010_1_alg».proof.Proof.LibDenseT
import Idealize.ShloMosaic.Lib.Pipeline.Value
import Idealize.ShloMosaic.Lib.ValueIdx

noncomputable section

namespace Cert.KernelIdeal.PayIdx

open Cert.KernelIdeal Cert.KernelIdeal.Gen Idealize.ShloMosaic Idealize.ShloMosaic.ValueIdx

/-- The dense accumulator's reset value is zero at every entry. -/
theorem pay1_apply (j : S512x1024.Idx) : k0_pay1 (F := Ideal) j = Ideal.ofBits .f32 0x00000000#32 := by
  unfold k0_pay1
  rw [shapeCast_self]
  rfl

/-- The low-rank accumulator's reset value is zero at every entry. -/
theorem pay2_apply (j : S512x128.Idx) : k0_pay2 (F := Ideal) j = Ideal.ofBits .f32 0x00000000#32 := by
  unfold k0_pay2
  rw [shapeCast_self]
  rfl

/-- The dense update: the accumulator's entry plus this step's product x · wᵀ at (p, q). -/
theorem pay4_apply (v3 : Vec Ideal S512x1024 .f32) (v5 : Vec Ideal S1024x1024 .f32) (v10 : Vec Ideal S512x1024 .f32)
    (p : Fin 512) (q : Fin 1024) :
    k0_pay4 v3 v5 v10 (ix2 p q) = v10 (ix2 p q) + ∑ k : Fin 1024, v3 (ix2 p k) * v5 (ix2 q k) := by
  unfold k0_pay4 k0_pay3
  rw [shapeCast_self]
  refine congrArg (v10 (ix2 p q) + ·) ?_
  exact Cert.LibDenseT.matmul_zero_apply dot_S512x1024_S1024x1024_S512x1024_1_1_0_0_n_n none rfl rfl rfl rfl rfl rfl _ _ p q

/-- The low-rank update: the accumulator's entry plus this step's product x · aᵀ at (p, r). -/
theorem pay5_apply (v3 : Vec Ideal S512x1024 .f32) (v7 : Vec Ideal S128x1024 .f32) (v16 : Vec Ideal S512x128 .f32)
    (p : Fin 512) (r : Fin 128) :
    k0_pay5 v3 v7 v16 (ix2 p r) = v16 (ix2 p r) + ∑ k : Fin 1024, v3 (ix2 p k) * v7 (ix2 r k) := by
  unfold k0_pay5 k0_pay3
  rw [shapeCast_self, shapeCast_self]
  refine congrArg (v16 (ix2 p r) + ·) ?_
  exact Cert.LibDenseT.matmul_zero_apply dot_S512x1024_S128x1024_S512x128_1_1_0_0_n_n none rfl rfl rfl rfl rfl rfl _ _ p r

/-- The output expression at (p, q): the dense accumulator's entry plus the bias row's entry q, plus twice the product of
    the low-rank accumulator with bᵀ at (p, q). -/
theorem pay6_apply (v25 : Vec Ideal S1024x128 .f32) (v28 : Vec Ideal S512x128 .f32) (v31 : Vec Ideal S512x1024 .f32)
    (v32 : Vec Ideal S1x1024 .f32) (p : Fin 512) (q : Fin 1024) :
    k0_pay6 v25 v28 v31 v32 (ix2 p q)
      = (v31 (ix2 p q) + v32 (ix2 0 q)) + Ideal.ofBits .f32 0x40000000#32 * ∑ r : Fin 128, v28 (ix2 p r) * v25 (ix2 q r) := by
  unfold k0_pay6
  rw [shapeCast_self, shapeCast_self]
  have hb : broadcastTo S512x1024 v32 broadcasts_S1x1024_S512x1024 (ix2 p q) = v32 (ix2 0 q) :=
    broadcastTo_apply v32 broadcasts_S1x1024_S512x1024 (ix2 p q) (ix2 0 q) (fun a => match a with
      | ⟨0, _⟩ => by show 0 = if (1 : Nat) = 1 then 0 else _; rw [if_pos rfl]
      | ⟨1, _⟩ => by show q.val = if (1024 : Nat) = 1 then 0 else q.val; rw [if_neg (by decide)])
  have hm := Cert.LibDenseT.matmul_zero_apply dot_S512x128_S1024x128_S512x1024_1_1_0_0_n_n none rfl rfl rfl rfl rfl rfl
    (truncf .bf16 v28 bitsLt_bf16_f32) (truncf .bf16 v25 bitsLt_bf16_f32) p q
  show (v31 (ix2 p q) + broadcastTo S512x1024 v32 broadcasts_S1x1024_S512x1024 (ix2 p q)) + (Ideal.ofBits .f32 0x40000000#32 * _) = _
  rw [hb]
  exact congrArg (fun z => (v31 (ix2 p q) + v32 (ix2 0 q)) + Ideal.ofBits .f32 0x40000000#32 * z) hm

end Cert.KernelIdeal.PayIdx

end
-- ==== Proof.Blocks.lean ====
/-
  The blocks the body is given at a grid point, as reads of the arrays at global positions.

  The grid has 16 × 4 × 4 points; point t stands for token block t / 16, feature block (t / 4) % 4 and reduction step
  t % 4. At point t the body sees rows 512·(t / 16) + p of x, rows 1024·((t / 4) % 4) + q of W and of the widened B, the
  entries 1024·((t / 4) % 4) + q of the bias row, and the columns 1024·(t % 4) + k of x, of W and of the widened A.
-/
import proofs.«135816_j8744553415010_1_alg».proof.Proof.Gen.KernelIdeal.Frame.Runs
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The grid has 256 points. -/
theorem lt256 (t : Fin cfg0.N) : t.val < 256 := lt_of_lt_of_eq t.isLt (show cfg0.N = 256 from N_0)

/-- The token (row of x and of the result) that row p of point t's blocks stands for. -/
def tok (t : Fin cfg0.N) (p : Fin 512) : Fin 8192 := ⟨512 * (t.val / 16) + p.val, by have := lt256 t; omega⟩
/-- The output feature (row of W and of B, entry of the bias) that row q of point t's blocks stands for. -/
def feat (t : Fin cfg0.N) (q : Fin 1024) : Fin 4096 := ⟨1024 * ((t.val / 4) % 4) + q.val, by omega⟩
/-- The input feature (column of x, W and A) that column k of point t's blocks stands for. -/
def inp (t : Fin cfg0.N) (k : Fin 1024) : Fin 4096 := ⟨1024 * (t.val % 4) + k.val, by omega⟩

/-- The five input blocks of a point and the five arrays they are cut from, at their literal types. -/
abbrev xblk (c : Dev nD) (t : Fin cfg0.N) : Vec F S512x1024 .f32 := iblk m c 0 t
abbrev wblk (c : Dev nD) (t : Fin cfg0.N) : Vec F S1024x1024 .f32 := iblk m c 1 t
abbrev bblk (c : Dev nD) (t : Fin cfg0.N) : Vec F S1x1024 .f32 := iblk m c 2 t
abbrev ablk (c : Dev nD) (t : Fin cfg0.N) : Vec F S128x1024 .f32 := iblk m c 3 t
abbrev lblk (c : Dev nD) (t : Fin cfg0.N) : Vec F S1024x128 .f32 := iblk m c 4 t
abbrev xarr (c : Dev nD) : Vec F S8192x4096 .f32 := V m c main_arg0
abbrev warr (c : Dev nD) : Vec F S4096x4096 .f32 := V m c main_arg1
abbrev barr (c : Dev nD) : Vec F S1x4096 .f32 := V m c main_v6
abbrev aarr (c : Dev nD) : Vec F S128x4096 .f32 := V m c main_v2
abbrev larr (c : Dev nD) : Vec F S4096x128 .f32 := V m c main_v5

/-- The printed index maps in closed form, decided once over the 256 points. -/
theorem idx_facts : ∀ t : Fin cfg0.N,
    win0_0.index t (0 : Fin 2) = t.val / 16 ∧ win0_0.index t (1 : Fin 2) = t.val % 4
    ∧ win0_1.index t (0 : Fin 2) = (t.val / 4) % 4 ∧ win0_1.index t (1 : Fin 2) = t.val % 4
    ∧ win0_2.index t (0 : Fin 2) = 0 ∧ win0_2.index t (1 : Fin 2) = (t.val / 4) % 4
    ∧ win0_3.index t (0 : Fin 2) = 0 ∧ win0_3.index t (1 : Fin 2) = t.val % 4
    ∧ win0_4.index t (0 : Fin 2) = (t.val / 4) % 4 ∧ win0_4.index t (1 : Fin 2) = 0
    ∧ win0_5.index t (0 : Fin 2) = t.val / 16 ∧ win0_5.index t (1 : Fin 2) = (t.val / 4) % 4 :=
  (by decide +kernel : ∀ t : Fin grid0.N, _)

/-! Where an entry of a point's block sits in its array: pure index arithmetic over the decided index maps. -/

theorem emb_x (t : Fin cfg0.N) (p : Fin 512) (k : Fin 1024) :
    ((cfg0.win 0).blk t).view.emb (ix2 p k) = ix2 (tok t p) (inp t k) := by
  obtain ⟨e0, e1, -⟩ := idx_facts t
  funext a; apply Fin.ext
  match a with
  | ⟨0, _⟩ => show win0_0.index t (0 : Fin 2) * 512 + 1 * p.val = 512 * (t.val / 16) + p.val; omega
  | ⟨1, _⟩ => show win0_0.index t (1 : Fin 2) * 1024 + 1 * k.val = 1024 * (t.val % 4) + k.val; omega

theorem emb_w (t : Fin cfg0.N) (q : Fin 1024) (k : Fin 1024) :
    ((cfg0.win 1).blk t).view.emb (ix2 q k) = ix2 (feat t q) (inp t k) := by
  obtain ⟨-, -, e0, e1, -⟩ := idx_facts t
  funext a; apply Fin.ext
  match a with
  | ⟨0, _⟩ => show win0_1.index t (0 : Fin 2) * 1024 + 1 * q.val = 1024 * ((t.val / 4) % 4) + q.val; omega
  | ⟨1, _⟩ => show win0_1.index t (1 : Fin 2) * 1024 + 1 * k.val = 1024 * (t.val % 4) + k.val; omega

theorem emb_b (t : Fin cfg0.N) (q : Fin 1024) :
    ((cfg0.win 2).blk t).view.emb (ix2 (0 : Fin 1) q) = ix2 (0 : Fin 1) (feat t q) := by
  obtain ⟨-, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 1024 + 1 * q.val = 1024 * ((t.val / 4) % 4) + q.val; omega

theorem emb_a (t : Fin cfg0.N) (r : Fin 128) (k : Fin 1024) :
    ((cfg0.win 3).blk t).view.emb (ix2 r k) = ix2 r (inp t k) := by
  obtain ⟨-, -, -, -, -, -, e0, e1, -⟩ := idx_facts t
  funext a; apply Fin.ext
  match a with
  | ⟨0, _⟩ => show win0_3.index t (0 : Fin 2) * 128 + 1 * r.val = r.val; omega
  | ⟨1, _⟩ => show win0_3.index t (1 : Fin 2) * 1024 + 1 * k.val = 1024 * (t.val % 4) + k.val; omega

theorem emb_l (t : Fin cfg0.N) (q : Fin 1024) (r : Fin 128) :
    ((cfg0.win 4).blk t).view.emb (ix2 q r) = ix2 (feat t q) r := by
  obtain ⟨-, -, -, -, -, -, -, -, e0, e1, -⟩ := idx_facts t
  funext a; apply Fin.ext
  match a with
  | ⟨0, _⟩ => show win0_4.index t (0 : Fin 2) * 1024 + 1 * q.val = 1024 * ((t.val / 4) % 4) + q.val; omega
  | ⟨1, _⟩ => show win0_4.index t (1 : Fin 2) * 128 + 1 * r.val = r.val; omega

/-- Entry (p, q) of point t's output block sits at (token, feature) of the result. -/
theorem emb_o (t : Fin cfg0.N) (p : Fin 512) (q : Fin 1024) :
    ((cfg0.win 5).blk t).view.emb (ix2 p q) = ix2 (tok t p) (feat t q) := by
  obtain ⟨-, -, -, -, -, -, -, -, -, -, e0, e1⟩ := idx_facts t
  funext a; apply Fin.ext
  match a with
  | ⟨0, _⟩ => show win0_5.index t (0 : Fin 2) * 512 + 1 * p.val = 512 * (t.val / 16) + p.val; omega
  | ⟨1, _⟩ => show win0_5.index t (1 : Fin 2) * 1024 + 1 * q.val = 1024 * ((t.val / 4) % 4) + q.val; omega

/-! A block's entry is its array's entry at that position. -/

theorem xblk_apply (c : Dev nD) (t : Fin cfg0.N) (p : Fin 512) (k : Fin 1024) :
    xblk m c t (ix2 p k) = xarr m c (ix2 (tok t p) (inp t k)) :=
  congrArg (xarr m c) (emb_x t p k)

theorem wblk_apply (c : Dev nD) (t : Fin cfg0.N) (q : Fin 1024) (k : Fin 1024) :
    wblk m c t (ix2 q k) = warr m c (ix2 (feat t q) (inp t k)) :=
  congrArg (warr m c) (emb_w t q k)

theorem bblk_apply (c : Dev nD) (t : Fin cfg0.N) (q : Fin 1024) :
    bblk m c t (ix2 (0 : Fin 1) q) = barr m c (ix2 (0 : Fin 1) (feat t q)) :=
  congrArg (barr m c) (emb_b t q)

theorem ablk_apply (c : Dev nD) (t : Fin cfg0.N) (r : Fin 128) (k : Fin 1024) :
    ablk m c t (ix2 r k) = aarr m c (ix2 r (inp t k)) :=
  congrArg (aarr m c) (emb_a t r k)

theorem lblk_apply (c : Dev nD) (t : Fin cfg0.N) (q : Fin 1024) (r : Fin 128) :
    lblk m c t (ix2 q r) = larr m c (ix2 (feat t q) r) :=
  congrArg (larr m c) (emb_l t q r)

end Cert.KernelIdeal.Blocks

end
-- ==== Proof.Accum.lean ====
/-
  What the two accumulators hold after each reduction step, and what the last step writes.

  Within a block of four reduction steps the dense accumulator after step j is 0 plus the sum over the steps 0 … j of
  that step's product of the x block with the W block, entry by entry; the low-rank accumulator is the same with the A
  block in W's place. The output block written at the last step is the body's output expression of the two finished
  accumulators, the step's B block and the step's bias block.
-/
import proofs.«135816_j8744553415010_1_alg».proof.Proof.Gen.KernelIdeal.Value
import proofs.«135816_j8744553415010_1_alg».proof.Proof.Pieces
import proofs.«135816_j8744553415010_1_alg».proof.Proof.PayIdx
import proofs.«135816_j8744553415010_1_alg».proof.Proof.Blocks
import Idealize.ShloMosaic.Lib.Pipeline.Value
import Idealize.ShloMosaic.Lib.ValueIdx

noncomputable section

namespace Cert.KernelIdeal.Accum

open Cert.KernelIdeal Cert.KernelIdeal.Gen Cert.KernelIdeal.Blocks Idealize.ShloMosaic Idealize.ShloMosaic.TcCoe Idealize.SL.Sem
open Idealize.ShloMosaic.ValueIdx

variable (m : (ℓ : Loc nD τ sig) → Buf (Elt Ideal) ℓ)

/-- Step n's addend to the dense accumulator: entry (p, q) of the x block times the transposed W block. -/
def dAdd (c : Dev nD) (n : ℕ) : S512x1024.Idx → EReal := fun j =>
  if h : n < cfg0.N then ∑ k : Fin 1024, xblk m c ⟨n, h⟩ (ix2 (j 0) k) * wblk m c ⟨n, h⟩ (ix2 (j 1) k) else 0

/-- Step n's addend to the low-rank accumulator: entry (p, r) of the x block times the transposed A block. -/
def lAdd (c : Dev nD) (n : ℕ) : S512x128.Idx → EReal := fun j =>
  if h : n < cfg0.N then ∑ k : Fin 1024, xblk m c ⟨n, h⟩ (ix2 (j 0) k) * ablk m c ⟨n, h⟩ (ix2 (j 1) k) else 0

/-- A block's first step leaves 0 plus its addend in the dense accumulator, whatever was there. -/
theorem dense_first (c : Dev nD) (n : ℕ) (h : n < cfg0.N) (h0 : n % 4 = 0) (acc : Vec Ideal S512x1024 .f32) (j : S512x1024.Idx) :
    Value.scAt0_0 m c n h acc j = Ideal.ofBits .f32 0x00000000#32 + dAdd m c n j := by
  obtain ⟨p, q, rfl⟩ : ∃ (p : Fin 512) (q : Fin 1024), j = ix2 p q := ⟨j 0, j 1, eq_ix2 j⟩
  have h1 : ¬n % 4 = 3 := by omega
  unfold Value.scAt0_0
  rw [dif_pos h0, dif_neg h1, Pieces.sout0_A_0_eq, PayIdx.pay4_apply, PayIdx.pay1_apply]
  unfold dAdd
  rw [dif_pos h]

/-- Every later step adds its addend to what the dense accumulator held. -/
theorem dense_next (c : Dev nD) (n : ℕ) (h : n < cfg0.N) (h0 : ¬n % 4 = 0) (acc : Vec Ideal S512x1024 .f32) (j : S512x1024.Idx) :
    Value.scAt0_0 m c n h acc j = acc j + dAdd m c n j := by
  obtain ⟨p, q, rfl⟩ : ∃ (p : Fin 512) (q : Fin 1024), j = ix2 p q := ⟨j 0, j 1, eq_ix2 j⟩
  unfold Value.scAt0_0
  rw [dif_neg h0]
  by_cases h1 : n % 4 = 3
  · rw [dif_pos h1, Pieces.sout0_C_0_eq, PayIdx.pay4_apply]
    unfold dAdd
    rw [dif_pos h]
  · rw [dif_neg h1, Pieces.sout0_B_0_eq, PayIdx.pay4_apply]
    unfold dAdd
    rw [dif_pos h]

/-- A block's first step leaves 0 plus its addend in the low-rank accumulator, whatever was there. -/
theorem low_first (c : Dev nD) (n : ℕ) (h : n < cfg0.N) (h0 : n % 4 = 0) (acc : Vec Ideal S512x128 .f32) (j : S512x128.Idx) :
    Value.scAt0_1 m c n h acc j = Ideal.ofBits .f32 0x00000000#32 + lAdd m c n j := by
  obtain ⟨p, r, rfl⟩ : ∃ (p : Fin 512) (r : Fin 128), j = ix2 p r := ⟨j 0, j 1, eq_ix2 j⟩
  have h1 : ¬n % 4 = 3 := by omega
  unfold Value.scAt0_1
  rw [dif_pos h0, dif_neg h1, Pieces.sout0_A_1_eq, PayIdx.pay5_apply, PayIdx.pay2_apply]
  unfold lAdd
  rw [dif_pos h]

/-- Every later step adds its addend to what the low-rank accumulator held. -/
theorem low_next (c : Dev nD) (n : ℕ) (h : n < cfg0.N) (h0 : ¬n % 4 = 0) (acc : Vec Ideal S512x128 .f32) (j : S512x128.Idx) :
    Value.scAt0_1 m c n h acc j = acc j + lAdd m c n j := by
  obtain ⟨p, r, rfl⟩ : ∃ (p : Fin 512) (r : Fin 128), j = ix2 p r := ⟨j 0, j 1, eq_ix2 j⟩
  unfold Value.scAt0_1
  rw [dif_neg h0]
  by_cases h1 : n % 4 = 3
  · rw [dif_pos h1, Pieces.sout0_C_1_eq, PayIdx.pay5_apply]
    unfold lAdd
    rw [dif_pos h]
  · rw [dif_neg h1, Pieces.sout0_B_1_eq, PayIdx.pay5_apply]
    unfold lAdd
    rw [dif_pos h]

/-- The dense accumulator after point t: 0 plus the addends of its block's steps so far. -/
theorem dense_after (c : Dev nD) (t : Fin cfg0.N) (j : S512x1024.Idx) :
    (outsAt0 m c t.val t.isLt).2.1 j
      = Ideal.ofBits .f32 0x00000000#32 + ∑ s ∈ Finset.range (t.val % 4 + 1), dAdd m c (4 * (t.val / 4) + s) j := by
  rw [Value.soutsAt0_0_eq]
  exact Pipeline.accAt_add_apply _ _ (fun _ => Ideal.ofBits .f32 0x00000000#32) (dAdd m c) (4 * (t.val / 4)) 3
    (fun h i => dense_first m c _ h (by omega) _ i)
    (fun n h acc i hb he => dense_next m c n h (by omega) acc i)
    (t.val % 4) (by omega) _ j

/-- The low-rank accumulator after point t: 0 plus the addends of its block's steps so far. -/
theorem low_after (c : Dev nD) (t : Fin cfg0.N) (j : S512x128.Idx) :
    (outsAt0 m c t.val t.isLt).2.2 j
      = Ideal.ofBits .f32 0x00000000#32 + ∑ s ∈ Finset.range (t.val % 4 + 1), lAdd m c (4 * (t.val / 4) + s) j := by
  rw [Value.soutsAt0_1_eq]
  exact Pipeline.accAt_add_apply _ _ (fun _ => Ideal.ofBits .f32 0x00000000#32) (lAdd m c) (4 * (t.val / 4)) 3
    (fun h i => low_first m c _ h (by omega) _ i)
    (fun n h acc i hb he => low_next m c n h (by omega) acc i)
    (t.val % 4) (by omega) _ j

/-- At a block's last step the output block is the body's output expression of the two accumulators as that step leaves
    them, the step's B block and its bias block. -/
theorem out_last (c : Dev nD) (t : Fin cfg0.N) (h3 : t.val % 4 = 3) :
    (outsAt0 m c t.val t.isLt).1
      = k0_pay6 (lblk m c t) (outsAt0 m c t.val t.isLt).2.2 (outsAt0 m c t.val t.isLt).2.1 (bblk m c t) := by
  have h0 : ¬t.val % 4 = 0 := by omega
  rw [outsAt0_C m c t h0 h3]
  dsimp only
  rw [Pieces.out0_C_5_eq, Pieces.sout0_C_0_eq, Pieces.sout0_C_1_eq]

end Cert.KernelIdeal.Accum

end
-- ==== Proof.LibPadSet.lean ====
/-
  Writing a smaller matrix into the top-left corner of a larger one, read at an entry.

  A scatter whose update window spans both axes, with no inserted axis and a single start index that is zero, overwrites
  the entries (r, q) with r below the update's row count and q below its column count by the update's entries, and leaves
  every other entry of the operand as it was. This is how zero-padding a matrix (zeros(...).at[:n, :c].set(u)) reads.
-/
import Idealize.ShloMosaic.PureOps.Ideal
import Idealize.ShloMosaic.Lib.ValueIdx

noncomputable section

namespace Cert.LibPadSet

open Idealize.ShloMosaic Idealize.ShloMosaic.ValueIdx

/-- A left fold of steps read at one index that no step of the list touches: the starting value. -/
theorem foldl_read_miss {ι β κ : Type} (step : (ι → β) → κ → (ι → β)) (P : κ → Prop) (i' : ι)
    (hmiss : ∀ r n, ¬ P n → step r n i' = r i') (l : List κ) (x : ι → β) (h : ∀ n ∈ l, ¬ P n) :
    l.foldl step x i' = x i' := by
  induction l using List.reverseRecOn with
  | nil => rfl
  | append_singleton l a ih =>
    rw [List.foldl_append, List.foldl_cons, List.foldl_nil, hmiss _ _ (h a (by simp))]
    exact ih (fun n hn => h n (by simp [hn]))

/-- A left fold of steps read at one index that some step of the list overwrites, every step that does writing the
    same value: that value. -/
theorem foldl_read_hit {ι β κ : Type} (step : (ι → β) → κ → (ι → β)) (P : κ → Prop) (v : κ → β) (i' : ι)
    (hhit : ∀ r n, P n → step r n i' = v n) (hmiss : ∀ r n, ¬ P n → step r n i' = r i')
    (l : List κ) (x : ι → β) (n0 : κ) (hn0 : n0 ∈ l) (hP : P n0) (hsame : ∀ n ∈ l, P n → v n = v n0) :
    l.foldl step x i' = v n0 := by
  induction l using List.reverseRecOn with
  | nil => exact absurd hn0 List.not_mem_nil
  | append_singleton l a ih =>
    rw [List.foldl_append, List.foldl_cons, List.foldl_nil]
    by_cases ha : P a
    · rw [hhit _ _ ha]; exact hsame a (by simp) ha
    · rw [hmiss _ _ ha]
      have hl : n0 ∈ l := by
        rcases List.mem_append.1 hn0 with h | h
        · exact h
        · rw [List.mem_singleton.1 h] at hP; exact absurd hP ha
      exact ih hl (fun n hn => hsame n (by simp [hn]))

/-- A scatter that sets, read at an index no update entry lands on: the operand's entry. -/
theorem scatter_set_miss {α : Type} {s si u : Shape} {w : ℕ} (d : ScatterDims s si u) (x : s.Idx → α) (idx : IVec si w)
    (upd : u.Idx → α) (i' : s.Idx) (h : ∀ j, d.resultIdx? j idx ≠ some i') :
    Host.scatter d (fun _ b => b) x idx upd i' = x i' := by
  unfold Host.scatter
  refine foldl_read_miss _ (fun m => d.resultIdx? (u.rowMajor.symm m) idx = some i') i' ?_ _ x (fun m _ => h _)
  intro ρ m hm
  cases hres : d.resultIdx? (u.rowMajor.symm m) idx with
  | none => rfl
  | some i => exact if_neg fun hii => hm (by rw [hres, hii])

/-- A scatter that sets, read at an index some update entry lands on, every entry that lands there being the same: that
    entry. -/
theorem scatter_set_hit {α : Type} {s si u : Shape} {w : ℕ} (d : ScatterDims s si u) (x : s.Idx → α) (idx : IVec si w)
    (upd : u.Idx → α) (i' : s.Idx) (j0 : u.Idx) (h0 : d.resultIdx? j0 idx = some i')
    (hsame : ∀ j, d.resultIdx? j idx = some i' → upd j = upd j0) :
    Host.scatter d (fun _ b => b) x idx upd i' = upd j0 := by
  unfold Host.scatter
  refine (foldl_read_hit _ (fun m => d.resultIdx? (u.rowMajor.symm m) idx = some i') (fun m => upd (u.rowMajor.symm m)) i'
    ?_ ?_ _ x (u.rowMajor j0) (List.mem_finRange _) ?_ ?_).trans ?_
  · intro ρ m hm
    have hm' : d.resultIdx? (u.rowMajor.symm m) idx = some i' := hm
    rw [hm']
    exact if_pos rfl
  · intro ρ m hm
    cases hres : d.resultIdx? (u.rowMajor.symm m) idx with
    | none => rfl
    | some i => exact if_neg fun hii => hm (by rw [hres, hii])
  · show d.resultIdx? (u.rowMajor.symm (u.rowMajor j0)) idx = some i'
    rw [Equiv.symm_apply_apply]; exact h0
  · intro m _ hm
    show upd (u.rowMajor.symm m) = upd (u.rowMajor.symm (u.rowMajor j0))
    rw [Equiv.symm_apply_apply]; exact hsame _ hm
  · show upd (u.rowMajor.symm (u.rowMajor j0)) = upd j0
    rw [Equiv.symm_apply_apply]

/-- Where update entry j of a whole-window scatter at the zero start lands: on the operand entry with j's own
    coordinates. -/
theorem resultIdx?_corner {N C n c w : ℕ} (d : ScatterDims ⟨2, ![N, C]⟩ ⟨1, ![1]⟩ ⟨2, ![n, c]⟩)
    (huw : d.updateWindowDims = [0, 1]) (hiw : d.insertedWindowDims = [])
    (idx : IVec ⟨1, ![1]⟩ w) (hidx : ∀ k, idx k = 0#w) (j : (⟨2, ![n, c]⟩ : Shape).Idx)
    (i : (⟨2, ![N, C]⟩ : Shape).Idx) :
    d.resultIdx? j idx = some i ↔ (i 0).val = (j 0).val ∧ (i 1).val = (j 1).val := by
  obtain ⟨uw, iw, sd, iv, wf⟩ := d
  simp only at huw hiw
  subst huw hiw
  -- the start of the window is zero on every axis: the one index word is zero
  have hs : ∀ a, ScatterDims.start ⟨[0, 1], [], sd, iv, wf⟩ j idx a = 0 := by
    intro a
    unfold ScatterDims.start
    split
    · rw [hidx, BitVec.toInt_zero]
    · rfl
  -- the window coordinate on each axis is j's coordinate on that axis
  have hw0 : ScatterDims.window ⟨[0, 1], [], sd, iv, wf⟩ j 0 = (j 0).val := rfl
  have hw1 : ScatterDims.window ⟨[0, 1], [], sd, iv, wf⟩ j 1 = (j 1).val := rfl
  have hi0 := idx2_lt0 i
  have hi1 := idx2_lt1 i
  unfold ScatterDims.resultIdx?
  constructor
  · intro h
    split at h
    · have hf := Option.some.inj h
      have h0 := congrArg (fun f => (f 0).val) hf
      have h1 := congrArg (fun f => (f 1).val) hf
      simp only [hs, hw0, hw1] at h0 h1
      omega
    · exact absurd h (by simp)
  · rintro ⟨h0, h1⟩
    set D : ScatterDims ⟨2, ![N, C]⟩ ⟨1, ![1]⟩ ⟨2, ![n, c]⟩ := ⟨[0, 1], [], sd, iv, wf⟩ with hD
    have hin : ∀ a, 0 ≤ D.start j idx a + (D.window j a : ℤ) ∧
        D.start j idx a + (D.window j a : ℤ) < ((⟨2, ![N, C]⟩ : Shape).size a : ℤ) := by
      intro a
      match a with
      | ⟨0, _⟩ =>
        show 0 ≤ D.start j idx 0 + (D.window j 0 : ℤ) ∧ D.start j idx 0 + (D.window j 0 : ℤ) < (N : ℤ)
        rw [hs, hw0]; omega
      | ⟨1, _⟩ =>
        show 0 ≤ D.start j idx 1 + (D.window j 1 : ℤ) ∧ D.start j idx 1 + (D.window j 1 : ℤ) < (C : ℤ)
        rw [hs, hw1]; omega
    rw [dif_pos hin]
    congr 1
    funext a
    apply Fin.ext
    match a with
    | ⟨0, _⟩ =>
      show (D.start j idx 0 + (D.window j 0 : ℤ)).toNat = (i 0).val
      rw [hs, hw0]; omega
    | ⟨1, _⟩ =>
      show (D.start j idx 1 + (D.window j 1 : ℤ)).toNat = (i 1).val
      rw [hs, hw1]; omega

/-- A scatter that sets a whole two-axis window at the zero start index, read at (r, q): the update's entry inside the
    window, the operand's entry outside it. The two hypotheses on the record are the printed dimension numbers, each
    closed by `rfl` at a use. -/
theorem scatter_set_corner {α : Type} {N C n c w : ℕ} (d : ScatterDims ⟨2, ![N, C]⟩ ⟨1, ![1]⟩ ⟨2, ![n, c]⟩)
    (huw : d.updateWindowDims = [0, 1]) (hiw : d.insertedWindowDims = [])
    (x : (⟨2, ![N, C]⟩ : Shape).Idx → α) (idx : IVec ⟨1, ![1]⟩ w) (hidx : ∀ k, idx k = 0#w)
    (upd : (⟨2, ![n, c]⟩ : Shape).Idx → α) (r : Fin N) (q : Fin C) :
    Host.scatter d (fun _ b => b) x idx upd (ix2 r q)
      = if h : r.val < n ∧ q.val < c then upd (ix2 ⟨r.val, h.1⟩ ⟨q.val, h.2⟩) else x (ix2 r q) := by
  by_cases h : r.val < n ∧ q.val < c
  · rw [dif_pos h]
    refine scatter_set_hit d x idx upd (ix2 r q) (ix2 ⟨r.val, h.1⟩ ⟨q.val, h.2⟩) ?_ ?_
    · exact (resultIdx?_corner d huw hiw idx hidx _ _).2 ⟨rfl, rfl⟩
    · intro j hj
      obtain ⟨h0, h1⟩ := (resultIdx?_corner d huw hiw idx hidx _ _).1 hj
      congr 1
      rw [eq_ix2 j]
      congr 1
      · exact Fin.ext h0.symm
      · exact Fin.ext h1.symm
  · rw [dif_neg h]
    refine scatter_set_miss d x idx upd (ix2 r q) fun j hj => h ?_
    obtain ⟨h0, h1⟩ := (resultIdx?_corner d huw hiw idx hidx _ _).1 hj
    have hj0 := idx2_lt0 j
    have hj1 := idx2_lt1 j
    change r.val = (j 0).val at h0
    change q.val = (j 1).val at h1
    omega

end Cert.LibPadSet

end
-- ==== Proof.HostIn.lean ====
/-
  What the kernel's region is given besides x and W.

  Before the region runs, the bias vector is reshaped to one row, and each low-rank matrix is written into the corner of a
  zero matrix with the rank axis widened from 16 to 128: A into the first 16 rows of a [128 × 4096] zero matrix, B into
  the first 16 columns of a [4096 × 128] zero matrix.
-/
import proofs.«135816_j8744553415010_1_alg».proof.Proof.Gen.KernelIdeal.Frame.Runs
import Idealize.ShloMosaic.Lib.StableHlo.Run
import Idealize.ShloMosaic.Lib.Pipeline.Value
import Idealize.ShloMosaic.Lib.ValueIdx
import proofs.«135816_j8744553415010_1_alg».proof.Proof.LibPadSet

noncomputable section

namespace Cert.KernelIdeal.HostIn

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- The bias as the region finds it: the argument reshaped to one row. -/
theorem V_bias (c : Dev nD) :
    (V m c main_v6 : S1x4096.Idx → Elt F .f32)
      = shapeCast S1x4096 (m ((c : Thread nD τ).loc main_arg2)) shapeCasts_S4096_S1x4096 := by
  dsimp only [Gen.V, Gen.hostOps0]
  after_results
  rfl

/-- A with its rank axis widened, as the region finds it: A set into the corner of a zero matrix. -/
theorem V_apad (c : Dev nD) :
    (V m c main_v2 : S128x4096.Idx → Elt F .f32)
      = Host.scatter scatter_S128x4096_S1_S16x4096_01_n_0_0 (fun _ b => b)
          (broadcastInDim S128x4096 ![] bcast_S_S128x4096 (constant (F := F) S_ .f32 0x00000000#32))
          (broadcastInDim S1 ![] bcast_S_S1 (constantI S_ 32 0#32))
          (m ((c : Thread nD τ).loc main_arg3)) := by
  dsimp only [Gen.V, Gen.hostOps0]
  after_results

/-- B with its rank axis widened, as the region finds it: B set into the corner of a zero matrix. -/
theorem V_bpad (c : Dev nD) :
    (V m c main_v5 : S4096x128.Idx → Elt F .f32)
      = Host.scatter scatter_S4096x128_S1_S4096x16_01_n_1_0 (fun _ b => b)
          (broadcastInDim S4096x128 ![] bcast_S_S4096x128 (constant (F := F) S_ .f32 0x00000000#32))
          (broadcastInDim S1 ![] bcast_S_S1 (constantI S_ 32 0#32))
          (m ((c : Thread nD τ).loc main_arg4)) := by
  dsimp only [Gen.V, Gen.hostOps0]
  after_results

/-- Entry o of the bias row the region finds is entry o of the bias. -/
theorem bias_apply (c : Dev nD) (o : Fin 4096) :
    (V m c main_v6 : S1x4096.Idx → Elt F .f32) (ix2 (0 : Fin 1) o) = m ((c : Thread nD τ).loc main_arg2) (ix1 o) := by
  rw [V_bias]
  refine (shapeCast_addUnit_apply (n := 1) ![4096] _ _ _).trans ?_
  exact congrArg _ (funext fun a => by match a with | ⟨0, _⟩ => rfl)

/-- Entry (r, i) of the widened A: A's entry on the first 16 rows, zero below them. -/
theorem apad_apply (c : Dev nD) (r : Fin 128) (i : Fin 4096) :
    (V m c main_v2 : S128x4096.Idx → Elt F .f32) (ix2 r i)
      = if h : r.val < 16 ∧ i.val < 4096 then m ((c : Thread nD τ).loc main_arg3) (ix2 ⟨r.val, h.1⟩ ⟨i.val, h.2⟩)
        else FloatOps.ofBits .f32 0x00000000#32 := by
  rw [V_apad]
  exact Cert.LibPadSet.scatter_set_corner scatter_S128x4096_S1_S16x4096_01_n_0_0 rfl rfl _ _ (fun _ => rfl) _ r i

/-- Entry (o, r) of the widened B: B's entry on the first 16 columns, zero beyond them. -/
theorem bpad_apply (c : Dev nD) (o : Fin 4096) (r : Fin 128) :
    (V m c main_v5 : S4096x128.Idx → Elt F .f32) (ix2 o r)
      = if h : o.val < 4096 ∧ r.val < 16 then m ((c : Thread nD τ).loc main_arg4) (ix2 ⟨o.val, h.1⟩ ⟨r.val, h.2⟩)
        else FloatOps.ofBits .f32 0x00000000#32 := by
  rw [V_bpad]
  exact Cert.LibPadSet.scatter_set_corner scatter_S4096x128_S1_S4096x16_01_n_1_0 rfl rfl _ _ (fun _ => rfl) _ o r

end Cert.KernelIdeal.HostIn

end
-- ==== Proof.SumLaws.lean ====
/-
  Two regroupings of a finite sum in a commutative monoid.

  A sum over 4096 indices is the sum over four consecutive blocks of 1024 of the blocks' sums; a sum over 128 indices
  whose terms vanish from index 16 on is the sum of its first 16 terms. Neither needs more than commutativity and
  associativity of addition, so both hold on the extended reals with no finiteness assumption.
-/
import Mathlib.Algebra.BigOperators.Fin
import Mathlib.Logic.Equiv.Fin.Basic

namespace Cert.SumLaws

/-- Σ over four blocks of 1024 is Σ over 4096. -/
theorem sum_blocks {M : Type*} [AddCommMonoid M] (f : Fin 4096 → M) (g : ℕ → Fin 1024 → M)
    (hg : ∀ (s : ℕ) (hs : s < 4) (k : Fin 1024), g s k = f ⟨1024 * s + k.val, by omega⟩) :
    ∑ s ∈ Finset.range 4, ∑ k : Fin 1024, g s k = ∑ i : Fin 4096, f i := by
  -- The outer sum over the naturals below 4 is a sum over Fin 4 ...
  rw [← Fin.sum_univ_eq_sum_range (fun s => ∑ k : Fin 1024, g s k) 4]
  -- ... the double sum is a sum over pairs (s, k) ...
  rw [← Fintype.sum_prod_type']
  -- ... and (s, k) ↦ k + 1024 · s is a bijection from the pairs onto the 4096 indices.
  refine Fintype.sum_equiv (finProdFinEquiv : Fin 4 × Fin 1024 ≃ Fin (4 * 1024)) _ _ ?_
  rintro ⟨s, k⟩
  rw [hg s.val s.isLt k]
  congr 1
  apply Fin.ext
  show 1024 * s.val + k.val = k.val + 1024 * s.val
  omega

/-- A sum over 128 terms that vanish from the 16th on is the sum of the first 16. -/
theorem sum_pad {M : Type*} [AddCommMonoid M] (h : Fin 128 → M) (hz : ∀ r : Fin 128, 16 ≤ r.val → h r = 0) :
    ∑ r : Fin 128, h r = ∑ r : Fin 16, h ⟨r.val, by omega⟩ := by
  -- Split the 128 indices into the first 16 and the remaining 112; the second part sums to zero.
  have split : ∑ r : Fin (16 + 112), h r
      = ∑ r : Fin 16, h (Fin.castAdd 112 r) + ∑ r : Fin 112, h (Fin.natAdd 16 r) :=
    Fin.sum_univ_add (fun r : Fin (16 + 112) => h r)
  have tail : ∑ r : Fin 112, h (Fin.natAdd 16 r) = 0 :=
    Finset.sum_eq_zero fun r _ => hz _ (by show 16 ≤ 16 + r.val; omega)
  rw [tail, add_zero] at split
  exact split

end Cert.SumLaws
-- ==== Proof.Spec.lean ====
/-
  The layer's result as one function of its five arguments.

  For a token t and an output feature o,
    out (t, o) = (Σ i, x (t, i) · W (o, i) + b o) + 2 · Σ r, (Σ i, x (t, i) · A (r, i)) · B (o, r),
  with i over the 4096 input features and r over the 16 ranks of the low-rank pair. Every sum and product is the one of
  the extended reals; the factor 2 is kept as the float word both programs spell it with.
-/
import Idealize.ShloMosaic.PureOps.Ideal
import Idealize.ShloMosaic.Lib.ValueIdx

noncomputable section

namespace Cert.Lora

open Idealize.ShloMosaic Idealize.ShloMosaic.ValueIdx

/-- Entry (t, o) of x · Wᵀ. -/
def dense (x : FVec Ideal ⟨2, ![8192, 4096]⟩ .f32) (W : FVec Ideal ⟨2, ![4096, 4096]⟩ .f32) (t : Fin 8192) (o : Fin 4096) : EReal :=
  ∑ i : Fin 4096, x (ix2 t i) * W (ix2 o i)

/-- Entry (t, r) of x · Aᵀ: the token projected onto rank r. -/
def down (x : FVec Ideal ⟨2, ![8192, 4096]⟩ .f32) (A : FVec Ideal ⟨2, ![16, 4096]⟩ .f32) (t : Fin 8192) (r : Fin 16) : EReal :=
  ∑ i : Fin 4096, x (ix2 t i) * A (ix2 r i)

/-- Entry (t, o) of (x · Aᵀ) · Bᵀ. -/
def up (x : FVec Ideal ⟨2, ![8192, 4096]⟩ .f32) (A : FVec Ideal ⟨2, ![16, 4096]⟩ .f32) (B : FVec Ideal ⟨2, ![4096, 16]⟩ .f32)
    (t : Fin 8192) (o : Fin 4096) : EReal :=
  ∑ r : Fin 16, down x A t r * B (ix2 o r)

/-- The layer: the dense product plus the bias, plus twice the low-rank product. -/
def out (x : FVec Ideal ⟨2, ![8192, 4096]⟩ .f32) (W : FVec Ideal ⟨2, ![4096, 4096]⟩ .f32) (b : FVec Ideal ⟨1, ![4096]⟩ .f32)
    (A : FVec Ideal ⟨2, ![16, 4096]⟩ .f32) (B : FVec Ideal ⟨2, ![4096, 16]⟩ .f32) : FVec Ideal ⟨2, ![8192, 4096]⟩ .f32 :=
  fun j => (dense x W (j 0) (j 1) + b (ix1 (j 1))) + Ideal.ofBits .f32 0x40000000#32 * up x A B (j 0) (j 1)

end Cert.Lora

end
-- ==== Proof.KernelValue.lean ====
/-
  The kernel's result array is the layer's function of the five arguments.

  At the last of a block's four reduction steps the dense accumulator holds, at (p, q), the sum over all 4096 input
  features of x (token, i) · W (feature, i): the four steps' sums over 1024 consecutive features, regrouped. The low-rank
  accumulator holds the same against the widened A, so its first 16 columns are x · Aᵀ; its other columns meet the zero
  columns of the widened B and drop out of the product. The block written is therefore the specification's block, and
  the blocks written at the 64 last steps tile the result.
-/
import proofs.«135816_j8744553415010_1_alg».proof.Proof.Gen.KernelIdeal.Value
import proofs.«135816_j8744553415010_1_alg».proof.Proof.Accum
import proofs.«135816_j8744553415010_1_alg».proof.Proof.HostIn
import proofs.«135816_j8744553415010_1_alg».proof.Proof.Blocks
import proofs.«135816_j8744553415010_1_alg».proof.Proof.SumLaws
import proofs.«135816_j8744553415010_1_alg».proof.Proof.Spec
import Idealize.ShloMosaic.PureOps.Ideal.Laws
import Idealize.ShloMosaic.Lib.Pipeline.Value
import Idealize.ShloMosaic.Lib.ValueIdx

noncomputable section

namespace Cert.KernelIdeal.KernelValue

open Cert.KernelIdeal Cert.KernelIdeal.Gen Cert.KernelIdeal.Blocks Cert.KernelIdeal.Accum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The five arguments as the launch finds them. -/
abbrev X (c : Dev nD) : FVec Ideal ⟨2, ![8192, 4096]⟩ .f32 := m ((c : Thread nD τ).loc main_arg0)
abbrev W (c : Dev nD) : FVec Ideal ⟨2, ![4096, 4096]⟩ .f32 := m ((c : Thread nD τ).loc main_arg1)
abbrev Bi (c : Dev nD) : FVec Ideal ⟨1, ![4096]⟩ .f32 := m ((c : Thread nD τ).loc main_arg2)
abbrev A (c : Dev nD) : FVec Ideal ⟨2, ![16, 4096]⟩ .f32 := m ((c : Thread nD τ).loc main_arg3)
abbrev B (c : Dev nD) : FVec Ideal ⟨2, ![4096, 16]⟩ .f32 := m ((c : Thread nD τ).loc main_arg4)

/-- x and W reach the region as launched. -/
theorem xarr_eq (c : Dev nD) : xarr m c = X m c := V_main_arg0 m c
theorem warr_eq (c : Dev nD) : warr m c = W m c := V_main_arg1 m c

/-- The steps of the block that ends at point t, and where their blocks sit: same tokens, same features, the s-th
    quarter of the input features. -/
theorem step_lt (t : Fin cfg0.N) (s : ℕ) (hs : s < 4) : 4 * (t.val / 4) + s < cfg0.N := by
  have h := lt256 t
  exact lt_of_lt_of_eq (by omega : 4 * (t.val / 4) + s < 256) (show cfg0.N = 256 from N_0).symm

theorem tok_step (t : Fin cfg0.N) (s : ℕ) (hs : s < 4) (p : Fin 512) : tok ⟨4 * (t.val / 4) + s, step_lt t s hs⟩ p = tok t p :=
  Fin.ext (by show 512 * ((4 * (t.val / 4) + s) / 16) + p.val = 512 * (t.val / 16) + p.val; omega)

theorem feat_step (t : Fin cfg0.N) (s : ℕ) (hs : s < 4) (q : Fin 1024) : feat ⟨4 * (t.val / 4) + s, step_lt t s hs⟩ q = feat t q :=
  Fin.ext (by show 1024 * (((4 * (t.val / 4) + s) / 4) % 4) + q.val = 1024 * ((t.val / 4) % 4) + q.val; omega)

theorem inp_step (t : Fin cfg0.N) (s : ℕ) (hs : s < 4) (k : Fin 1024) :
    inp ⟨4 * (t.val / 4) + s, step_lt t s hs⟩ k = ⟨1024 * s + k.val, by omega⟩ :=
  Fin.ext (by show 1024 * ((4 * (t.val / 4) + s) % 4) + k.val = 1024 * s + k.val; omega)

/-- The four steps' dense addends at (p, q) add up to entry (token, feature) of x · Wᵀ. -/
theorem dense_sum (c : Dev nD) (t : Fin cfg0.N) (p : Fin 512) (q : Fin 1024) :
    ∑ s ∈ Finset.range 4, dAdd m c (4 * (t.val / 4) + s) (ix2 p q) = Cert.Lora.dense (X m c) (W m c) (tok t p) (feat t q) := by
  refine (Finset.sum_congr rfl ?_).trans (Cert.SumLaws.sum_blocks
    (fun i => X m c (ix2 (tok t p) i) * W m c (ix2 (feat t q) i))
    (fun s k => if hs : s < 4 then X m c (ix2 (tok t p) ⟨1024 * s + k.val, by omega⟩) * W m c (ix2 (feat t q) ⟨1024 * s + k.val, by omega⟩) else 0)
    (fun s hs k => dif_pos hs))
  intro s hs
  have hs' : s < 4 := Finset.mem_range.mp hs
  unfold dAdd
  rw [dif_pos (step_lt t s hs')]
  refine Finset.sum_congr rfl fun k _ => ?_
  rw [dif_pos hs', xblk_apply, wblk_apply, tok_step t s hs', feat_step t s hs', inp_step t s hs', xarr_eq, warr_eq]

/-- The four steps' low-rank addends at (p, r) add up to the token's product with row r of the widened A. -/
theorem low_sum (c : Dev nD) (t : Fin cfg0.N) (p : Fin 512) (r : Fin 128) :
    ∑ s ∈ Finset.range 4, lAdd m c (4 * (t.val / 4) + s) (ix2 p r) = ∑ i : Fin 4096, X m c (ix2 (tok t p) i) * aarr m c (ix2 r i) := by
  refine (Finset.sum_congr rfl ?_).trans (Cert.SumLaws.sum_blocks
    (fun i => X m c (ix2 (tok t p) i) * aarr m c (ix2 r i))
    (fun s k => if hs : s < 4 then X m c (ix2 (tok t p) ⟨1024 * s + k.val, by omega⟩) * aarr m c (ix2 r ⟨1024 * s + k.val, by omega⟩) else 0)
    (fun s hs k => dif_pos hs))
  intro s hs
  have hs' : s < 4 := Finset.mem_range.mp hs
  unfold lAdd
  rw [dif_pos (step_lt t s hs')]
  refine Finset.sum_congr rfl fun k _ => ?_
  rw [dif_pos hs', xblk_apply, ablk_apply, tok_step t s hs', inp_step t s hs', xarr_eq]

/-- At a block's last step, entry (p, q) of the output block is the layer's entry (token, feature). -/
theorem block_value (c : Dev nD) (t : Fin cfg0.N) (h3 : t.val % 4 = 3) (p : Fin 512) (q : Fin 1024) :
    (outsAt0 m c t.val t.isLt).1 (ix2 p q)
      = Cert.Lora.out (X m c) (W m c) (Bi m c) (A m c) (B m c) (ix2 (tok t p) (feat t q)) := by
  have h4 : t.val % 4 + 1 = 4 := by omega
  -- the finished dense accumulator
  have hden : (outsAt0 m c t.val t.isLt).2.1 (ix2 p q) = Cert.Lora.dense (X m c) (W m c) (tok t p) (feat t q) := by
    rw [dense_after, h4, dense_sum, Ideal.ofBits_zero_f32, zero_add]
  -- the finished low-rank accumulator, against the widened A
  have hlow : ∀ r : Fin 128, (outsAt0 m c t.val t.isLt).2.2 (ix2 p r) = ∑ i : Fin 4096, X m c (ix2 (tok t p) i) * aarr m c (ix2 r i) := fun r => by
    rw [low_after, h4, low_sum, Ideal.ofBits_zero_f32, zero_add]
  -- the bias entry and the widened B's entries
  have hb : bblk m c t (ix2 (0 : Fin 1) q) = Bi m c (ix1 (feat t q)) :=
    (bblk_apply m c t q).trans (HostIn.bias_apply m c (feat t q))
  have hl : ∀ r : Fin 128, lblk m c t (ix2 q r) = if h : r.val < 16 then B m c (ix2 (feat t q) ⟨r.val, h⟩) else 0 := fun r => by
    refine (lblk_apply m c t q r).trans ((HostIn.bpad_apply m c (feat t q) r).trans ?_)
    by_cases hr : r.val < 16
    · rw [dif_pos ⟨(feat t q).isLt, hr⟩, dif_pos hr]
    · rw [dif_neg (fun h => hr h.2), dif_neg hr]; exact Ideal.ofBits_zero_f32
  have ha : ∀ (r : Fin 16) (i : Fin 4096), aarr m c (ix2 (⟨r.val, by omega⟩ : Fin 128) i) = A m c (ix2 r i) := fun r i => by
    refine (HostIn.apad_apply m c ⟨r.val, by omega⟩ i).trans ?_
    rw [dif_pos ⟨r.isLt, i.isLt⟩]
  rw [out_last m c t h3, PayIdx.pay6_apply, hden, hb]
  simp only [hlow, hl]
  -- ranks 16 … 127 meet a zero column of the widened B and drop out
  rw [Cert.SumLaws.sum_pad
    (fun x : Fin 128 => (∑ i : Fin 4096, X m c (ix2 (tok t p) i) * aarr m c (ix2 x i))
      * if h : x.val < 16 then B m c (ix2 (feat t q) ⟨x.val, h⟩) else 0)
    (fun r hr => by rw [dif_neg (by omega)]; exact mul_zero _)]
  refine congrArg (fun z => Cert.Lora.dense (X m c) (W m c) (tok t p) (feat t q) + Bi m c (ix1 (feat t q))
    + Ideal.ofBits .f32 0x40000000#32 * z) ?_
  refine Finset.sum_congr rfl fun r _ => ?_
  rw [dif_pos r.isLt]
  simp only [ha]
  rfl

/-- The layer's function of the launch's arguments, as contents of the result array. -/
abbrev res (c : Dev nD) : Buf (Elt Ideal) ((c : Thread nD τ).loc main_v7) :=
  Cert.Lora.out (X m c) (W m c) (Bi m c) (A m c) (B m c)

/-- What a block's last step writes back is that block of the layer's function. -/
theorem flushed_eq (c : Dev nD) (t : Fin cfg0.N) (hf : (cfg0.win 5).flush t = true) :
    (dats m 0 c).flushed 5 t = ((cfg0.win 5).blk t).view.read (Elt Ideal) (res m c) := by
  have h3 : t.val % 4 = 3 := (flush0_5 t).mp hf
  rw [Value.flushed5]
  funext j
  obtain ⟨p, q, rfl⟩ : ∃ (p : Fin 512) (q : Fin 1024), j = ix2 p q := ⟨j 0, j 1, eq_ix2 j⟩
  show (outsAt0 m c t.val t.isLt).1 (ix2 p q) = res m c (((cfg0.win 5).blk t).view.emb (ix2 p q))
  rw [emb_o, block_value m c t h3]

/-- An entry of the result lies in point t's output block iff each coordinate lies in the block's range on its axis. -/
theorem mem_blk (t : Fin cfg0.N) (i : S8192x4096.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v7).slice (win0_5.rect t)).set ↔ _
  rw [View.set_slice_whole, Rect.mem_set_unit]
  exact Iff.rfl

/-- Every entry (token, feature) of the result lies in the block written at the last step of the block of points that
    stands for the token's block of 512 and the feature's block of 1024. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have htv : 16 * ((i 0).val / 512) + 4 * ((i 1).val / 1024) + 3 < cfg0.N :=
    lt_of_lt_of_eq (by omega : 16 * ((i 0).val / 512) + 4 * ((i 1).val / 1024) + 3 < 256) (show cfg0.N = 256 from N_0).symm
  refine ⟨⟨16 * ((i 0).val / 512) + 4 * ((i 1).val / 1024) + 3, htv⟩, (flush0_5 _).mpr (by
    show (16 * ((i 0).val / 512) + 4 * ((i 1).val / 1024) + 3) % 4 = 3; omega), ?_⟩
  rw [mem_blk]
  obtain ⟨-, -, -, -, -, -, -, -, -, -, e0, e1⟩ := idx_facts ⟨16 * ((i 0).val / 512) + 4 * ((i 1).val / 1024) + 3, htv⟩
  intro a
  match a with
  | ⟨0, _⟩ =>
    show win0_5.index _ (0 : Fin 2) * 512 ≤ (i 0).val ∧ (i 0).val < win0_5.index _ (0 : Fin 2) * 512 + 512
    rw [e0]
    show (16 * ((i 0).val / 512) + 4 * ((i 1).val / 1024) + 3) / 16 * 512 ≤ (i 0).val
      ∧ (i 0).val < (16 * ((i 0).val / 512) + 4 * ((i 1).val / 1024) + 3) / 16 * 512 + 512
    omega
  | ⟨1, _⟩ =>
    show win0_5.index _ (1 : Fin 2) * 1024 ≤ (i 1).val ∧ (i 1).val < win0_5.index _ (1 : Fin 2) * 1024 + 1024
    rw [e1]
    show (16 * ((i 0).val / 512) + 4 * ((i 1).val / 1024) + 3) / 4 % 4 * 1024 ≤ (i 1).val
      ∧ (i 1).val < (16 * ((i 0).val / 512) + 4 * ((i 1).val / 1024) + 3) / 4 % 4 * 1024 + 1024
    omega

/-- After the run the result array holds the layer's function of the arguments. -/
theorem final (c : Dev nD) : (dats m 0 c).arrAt 5 cfg0.N = res m c :=
  (dats m 0 c).arrAt_eq_of_cover 5 (res m c) (fun t hf => flushed_eq m c t hf) cover

/-- The kernel's run, read: the result at the layer's function, the five arguments unchanged. -/
theorem run : θ_run defs (onTc (τ := τ) (main (F := Ideal))) ⟨m, fun _ => 0, ρ⟩ fun r => ∀ c : Dev nD,
      r.2.mem ((c : Thread nD τ).loc main_v7) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelValue

end
-- ==== Proof.RefSpec.lean ====
/-
  The reference computes the layer's function.

  Stage by stage the reference is x·Wᵀ, plus the bias broadcast along the tokens, plus 2 times ((x·Aᵀ)·Bᵀ); read at an
  entry (t, o) each product is the sum over its contracted axis, which is the specification's formula term by term.
-/
import proofs.«135816_j8744553415010_1_alg».proof.Proof.Gen.ReferenceIdeal.Read
import proofs.«135816_j8744553415010_1_alg».proof.Proof.Spec

noncomputable section

namespace Cert.ReferenceIdeal.RefSpec

open Cert.ReferenceIdeal Idealize.ShloMosaic Idealize.ShloMosaic.ValueIdx

/-- The reference's last stage is the layer's function of the five arguments. -/
theorem ref_eq_out (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) :
    Cert.ReferenceIdeal.Read.val_main_v8 (F := Ideal) x0 x1 x2 x3 x4 = Cert.Lora.out x0 x1 x2 x3 x4 := by
  funext j
  obtain ⟨t, o, rfl⟩ : ∃ (t : Fin 8192) (o : Fin 4096), j = ix2 t o := ⟨j 0, j 1, eq_ix2 j⟩
  rw [Read.val_main_v8_apply, Read.val_main_v3_apply, Read.val_main_v7_apply, Read.val_main_v0_apply,
    Read.val_main_v2_apply, Read.val_main_v1_apply, Read.val_main_v6_apply, Read.val_main_cst_apply,
    Read.val_main_v5_apply]
  simp only [Read.val_main_v4_apply]
  -- Each index the stages read at is the pair (or the single coordinate) the formula names.
  have e0l : ∀ k : Fin 4096, Read.lidx_main_v0 (ix2 t o) k = ix2 t k := fun k =>
    funext fun a => Fin.ext (by match a with | ⟨0, _⟩ => rfl | ⟨1, _⟩ => rfl)
  have e0r : ∀ k : Fin 4096, Read.ridx_main_v0 (ix2 t o) k = ix2 o k := fun k =>
    funext fun a => Fin.ext (by match a with | ⟨0, _⟩ => rfl | ⟨1, _⟩ => rfl)
  have eb : Read.idx_main_v1 (Read.idx_main_v2 (ix2 t o)) = ix1 o :=
    funext fun a => Fin.ext (by match a with | ⟨0, _⟩ => rfl)
  have e4l : ∀ (r : Fin 16) (k : Fin 4096), Read.lidx_main_v4 (Read.lidx_main_v5 (ix2 t o) r) k = ix2 t k := fun r k =>
    funext fun a => Fin.ext (by match a with | ⟨0, _⟩ => rfl | ⟨1, _⟩ => rfl)
  have e4r : ∀ (r : Fin 16) (k : Fin 4096), Read.ridx_main_v4 (Read.lidx_main_v5 (ix2 t o) r) k = ix2 r k := fun r k =>
    funext fun a => Fin.ext (by match a with | ⟨0, _⟩ => rfl | ⟨1, _⟩ => rfl)
  have e5r : ∀ r : Fin 16, Read.ridx_main_v5 (ix2 t o) r = ix2 o r := fun r =>
    funext fun a => Fin.ext (by match a with | ⟨0, _⟩ => rfl | ⟨1, _⟩ => rfl)
  simp only [e0l, e0r, eb, e4l, e4r, e5r]
  -- What is left is the formula itself: the sums and products of the extended reals, the factor 2 the same word on both sides.
  rfl

end Cert.ReferenceIdeal.RefSpec

end
-- ==== Proof.lean ====
/-
  A low-rank-adapted linear layer, out = x · Wᵀ + bias + 2 · (x · Aᵀ) · Bᵀ, computed blockwise by a kernel and whole by a
  reference, is one function of the five arguments on the extended reals.

  The kernel walks a 16 × 4 × 4 grid: for each block of 512 tokens and 1024 output features it takes four reduction steps
  over quarters of the 4096 input features, adding each step's products into a dense accumulator and a low-rank
  accumulator, and at the last step writes the block as (dense + bias) + 2 · (low-rank · Bᵀ). Before it runs, the rank
  axis of A and of B is widened from 16 to 128 by writing them into zero matrices. The reference takes the three products
  whole. The two agree because a sum over 4096 indices is the sum of its four quarters' sums, and because the widened
  ranks 16 … 127 meet a zero column of the widened B, so their terms are zero whatever the accumulator holds there: only
  associativity and commutativity of addition and x · 0 = 0 are used, which hold at the infinities too, so the
  precondition is never opened. A change of float format is the identity on the extended reals, and the factor 2 is the
  same float word on both sides.

  The three frames are the generated ones (the reference's is its generated run with the result dropped); the ideal
  pass rewrote nothing, so the kernel's idealization claim is trivial; the value claim sets the kernel's run
  (Proof/KernelValue.lean) beside the reference's run read stage by stage (Proof/RefSpec.lean) at the one specification
  (Proof/Spec.lean).
-/
import proofs.«135816_j8744553415010_1_alg».proof.Defs
import proofs.«135816_j8744553415010_1_alg».proof.Proof.Gen.Kernel
import proofs.«135816_j8744553415010_1_alg».proof.Proof.Gen.Kernel.Skeleton
import proofs.«135816_j8744553415010_1_alg».proof.Proof.Gen.Kernel.Launch
import proofs.«135816_j8744553415010_1_alg».proof.Proof.Gen.Kernel.Points
import proofs.«135816_j8744553415010_1_alg».proof.Proof.Gen.Kernel.Frame
import proofs.«135816_j8744553415010_1_alg».proof.Proof.Gen.KernelIdeal
import proofs.«135816_j8744553415010_1_alg».proof.Proof.Gen.KernelIdeal.Skeleton
import proofs.«135816_j8744553415010_1_alg».proof.Proof.Gen.KernelIdeal.Launch
import proofs.«135816_j8744553415010_1_alg».proof.Proof.Gen.KernelIdeal.Points
import proofs.«135816_j8744553415010_1_alg».proof.Proof.Gen.KernelIdeal.Frame
import proofs.«135816_j8744553415010_1_alg».proof.Proof.Gen.ReferenceIdeal
import proofs.«135816_j8744553415010_1_alg».proof.Proof.Gen.Pre_finite_inputs
import proofs.«135816_j8744553415010_1_alg».proof.Proof.Gen.KernelIdeal.Value
import proofs.«135816_j8744553415010_1_alg».proof.Proof.Gen.ReferenceIdeal.Run
import proofs.«135816_j8744553415010_1_alg».proof.Proof.Gen.ReferenceIdeal.Read
import proofs.«135816_j8744553415010_1_alg».proof.Proof.KernelValue
import proofs.«135816_j8744553415010_1_alg».proof.Proof.RefSpec
import Idealize.ShloMosaic.Adequacy
import Idealize.ShloMosaic.Init

noncomputable section

namespace Cert.Proof

open Idealize.ShloMosaic Idealize.SL.Sem

/-- The kernel as printed runs to the end without a fault and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's result are the layer's one function of arguments
    that agree. -/
theorem algebraic : Cert.algebraic_KernelIdeal_ReferenceIdeal := by
  intro m ρ m' ρ' _ hagree
  refine ⟨fun c => Cert.KernelIdeal.KernelValue.res m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefSpec.ref_eq_out,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
